-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x384x384 : Shape := ⟨3, ![128, 384, 384]⟩
abbrev S_ : Shape := ⟨0, ![]⟩

class Facts : Prop where
  bcast_S_S128x384x384 : S_.BroadcastsInDim S128x384x384 (![] : Fin 0 → Fin S128x384x384.rank)
  reducesTo_S128x384x384_S_d0_1_2 : S128x384x384.ReducesTo [0, 1, 2] S_
  h_S_ : 0 < S_.numel

variable [Facts]

def fn {F : FTy → Type} [FloatOps F] (main_arg0 : FVec F S128x384x384 .f32) : IVec S_ 1 :=
  let main_v0 : FVec F S128x384x384 .f32 := Host.absf main_arg0
  let main_cst : FVec F S_ .f32 := constant S_ .f32 0x7F800000#32
  let main_v1 : FVec F S128x384x384 .f32 := broadcastInDim S128x384x384 ![] bcast_S_S128x384x384 main_cst
  let main_v2 : IVec S128x384x384 1 := cmpf .olt main_v0 main_v1
  let main_c : IVec S_ 1 := constantI S_ 1 1#1
  let main_v3 : IVec S_ 1 := (fun x v => Host.reduce IntOp.andi x v reducesTo_S128x384x384_S_d0_1_2 h_S_) main_v2 main_c
  main_v3
-- ==== Kernel.lean ====
abbrev S128x384x384 : Shape := ⟨3, ![128, 384, 384]⟩
abbrev S_ : Shape := ⟨0, ![]⟩
abbrev S128x442x512 : Shape := ⟨3, ![128, 442, 512]⟩
abbrev S128x64x64 : Shape := ⟨3, ![128, 64, 64]⟩
abbrev S16x442x512 : Shape := ⟨3, ![16, 442, 512]⟩
abbrev S16x64x64 : Shape := ⟨3, ![16, 64, 64]⟩
abbrev S16x64x512 : Shape := ⟨3, ![16, 64, 512]⟩
abbrev S16x512 : Shape := ⟨2, ![16, 512]⟩
abbrev S16x1x512 : Shape := ⟨3, ![16, 1, 512]⟩
abbrev S16x64 : Shape := ⟨2, ![16, 64]⟩
abbrev S16x64x1 : Shape := ⟨3, ![16, 64, 1]⟩

abbrev nBuf : Space → Nat
  | .hbm => 5
  | .vmem => 5
  | .smem => 0
  | _ => 0

abbrev bufTy : (tb : Table) → Fin (tcTables nBuf tb) → BufTy
  | .hbm, ⟨0, _⟩ => ⟨S128x384x384, .f32⟩
  | .hbm, ⟨1, _⟩ => ⟨S_, .f32⟩
  | .hbm, ⟨2, _⟩ => ⟨S_, .f32⟩
  | .hbm, ⟨3, _⟩ => ⟨S128x442x512, .f32⟩
  | .hbm, ⟨4, _⟩ => ⟨S128x64x64, .f32⟩
  | .local _ .vmem, ⟨0, _⟩ => ⟨S16x442x512, .f32⟩
  | .local _ .vmem, ⟨1, _⟩ => ⟨S16x442x512, .f32⟩
  | .local _ .vmem, ⟨2, _⟩ => ⟨S16x64x64, .f32⟩
  | .local _ .vmem, ⟨3, _⟩ => ⟨S16x64x64, .f32⟩
  | .local _ .vmem, ⟨4, _⟩ => ⟨S16x64x512, .f32⟩
  | _, _ => ⟨S128x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x442x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S128x384x384_S128x442x512_000_0580_01280 : S128x384x384.Pads (![0, 0, 0] : Fin 3 → Nat) ![0, 58, 128] ![0, 0, 0] S128x442x512
  h_S_ : 0 < S_.numel
  inb_S16x442x512_S16x64x512_0_0_0 : ∀ a, (![0, 0, 0] : Fin 3 → Nat) a + S16x64x512.size a ≤ S16x442x512.size a
  h_S16x64x512 : 0 < S16x64x512.numel
  shapeCasts_S16x64x512_S16x64x512 : S16x64x512.ShapeCasts S16x64x512
  reduces_S16x64x512_S16x512 : S16x64x512.Reduces [1] S16x512
  inb_S16x64x512_S16x1x512_0_0_0 : ∀ a, (![0, 0, 0] : Fin 3 → Nat) a + S16x1x512.size a ≤ S16x64x512.size a
  h_S16x1x512 : 0 < S16x1x512.numel
  shapeCasts_S16x1x512_S16x512 : S16x1x512.ShapeCasts S16x512
  shapeCasts_S16x512_S16x1x512 : S16x512.ShapeCasts S16x1x512
  inb_S16x442x512_S16x64x512_0_6_0 : ∀ a, (![0, 6, 0] : Fin 3 → Nat) a + S16x64x512.size a ≤ S16x442x512.size a
  inb_S16x64x512_S16x1x512_0_1_0 : ∀ a, (![0, 1, 0] : Fin 3 → Nat) a + S16x1x512.size a ≤ S16x64x512.size a
  inb_S16x442x512_S16x64x512_0_12_0 : ∀ a, (![0, 12, 0] : Fin 3 → Nat) a + S16x64x512.size a ≤ S16x442x512.size a
  inb_S16x64x512_S16x1x512_0_2_0 : ∀ a, (![0, 2, 0] : Fin 3 → Nat) a + S16x1x512.size a ≤ S16x64x512.size a
  inb_S16x442x512_S16x64x512_0_18_0 : ∀ a, (![0, 18, 0] : Fin 3 → Nat) a + S16x64x512.size a ≤ S16x442x512.size a
  inb_S16x64x512_S16x1x512_0_3_0 : ∀ a, (![0, 3, 0] : Fin 3 → Nat) a + S16x1x512.size a ≤ S16x64x512.size a
  inb_S16x442x512_S16x64x512_0_24_0 : ∀ a, (![0, 24, 0] : Fin 3 → Nat) a + S16x64x512.size a ≤ S16x442x512.size a
  inb_S16x64x512_S16x1x512_0_4_0 : ∀ a, (![0, 4, 0] : Fin 3 → Nat) a + S16x1x512.size a ≤ S16x64x512.size a
  inb_S16x442x512_S16x64x512_0_30_0 : ∀ a, (![0, 30, 0] : Fin 3 → Nat) a + S16x64x512.size a ≤ S16x442x512.size a
  inb_S16x64x512_S16x1x512_0_5_0 : ∀ a, (![0, 5, 0] : Fin 3 → Nat) a + S16x1x512.size a ≤ S16x64x512.size a
  inb_S16x442x512_S16x64x512_0_36_0 : ∀ a, (![0, 36, 0] : Fin 3 → Nat) a + S16x64x512.size a ≤ S16x442x512.size a
  inb_S16x64x512_S16x1x512_0_6_0 : ∀ a, (![0, 6, 0] : Fin 3 → Nat) a + S16x1x512.size a ≤ S16x64x512.size a
  inb_S16x442x512_S16x64x512_0_42_0 : ∀ a, (![0, 42, 0] : Fin 3 → Nat) a + S16x64x512.size a ≤ S16x442x512.size a
  inb_S16x64x512_S16x1x512_0_7_0 : ∀ a, (![0, 7, 0] : Fin 3 → Nat) a + S16x1x512.size a ≤ S16x64x512.size a
  inb_S16x442x512_S16x64x512_0_48_0 : ∀ a, (![0, 48, 0] : Fin 3 → Nat) a + S16x64x512.size a ≤ S16x442x512.size a
  inb_S16x64x512_S16x1x512_0_8_0 : ∀ a, (![0, 8, 0] : Fin 3 → Nat) a + S16x1x512.size a ≤ S16x64x512.size a
  inb_S16x442x512_S16x64x512_0_54_0 : ∀ a, (![0, 54, 0] : Fin 3 → Nat) a + S16x64x512.size a ≤ S16x442x512.size a
  inb_S16x64x512_S16x1x512_0_9_0 : ∀ a, (![0, 9, 0] : Fin 3 → Nat) a + S16x1x512.size a ≤ S16x64x512.size a
  inb_S16x442x512_S16x64x512_0_60_0 : ∀ a, (![0, 60, 0] : Fin 3 → Nat) a + S16x64x512.size a ≤ S16x442x512.size a
  inb_S16x64x512_S16x1x512_0_10_0 : ∀ a, (![0, 10, 0] : Fin 3 → Nat) a + S16x1x512.size a ≤ S16x64x512.size a
  inb_S16x442x512_S16x64x512_0_66_0 : ∀ a, (![0, 66, 0] : Fin 3 → Nat) a + S16x64x512.size a ≤ S16x442x512.size a
  inb_S16x64x512_S16x1x512_0_11_0 : ∀ a, (![0, 11, 0] : Fin 3 → Nat) a + S16x1x512.size a ≤ S16x64x512.size a
  inb_S16x442x512_S16x64x512_0_72_0 : ∀ a, (![0, 72, 0] : Fin 3 → Nat) a + S16x64x512.size a ≤ S16x442x512.size a
  inb_S16x64x512_S16x1x512_0_12_0 : ∀ a, (![0, 12, 0] : Fin 3 → Nat) a + S16x1x512.size a ≤ S16x64x512.size a
  inb_S16x442x512_S16x64x512_0_78_0 : ∀ a, (![0, 78, 0] : Fin 3 → Nat) a + S16x64x512.size a ≤ S16x442x512.size a
  inb_S16x64x512_S16x1x512_0_13_0 : ∀ a, (![0, 13, 0] : Fin 3 → Nat) a + S16x1x512.size a ≤ S16x64x512.size a
  inb_S16x442x512_S16x64x512_0_84_0 : ∀ a, (![0, 84, 0] : Fin 3 → Nat) a + S16x64x512.size a ≤ S16x442x512.size a
  inb_S16x64x512_S16x1x512_0_14_0 : ∀ a, (![0, 14, 0] : Fin 3 → Nat) a + S16x1x512.size a ≤ S16x64x512.size a
  inb_S16x442x512_S16x64x512_0_90_0 : ∀ a, (![0, 90, 0] : Fin 3 → Nat) a + S16x64x512.size a ≤ S16x442x512.size a
  inb_S16x64x512_S16x1x512_0_15_0 : ∀ a, (![0, 15, 0] : Fin 3 → Nat) a + S16x1x512.size a ≤ S16x64x512.size a
  inb_S16x442x512_S16x64x512_0_96_0 : ∀ a, (![0, 96, 0] : Fin 3 → Nat) a + S16x64x512.size a ≤ S16x442x512.size a
  inb_S16x64x512_S16x1x512_0_16_0 : ∀ a, (![0, 16, 0] : Fin 3 → Nat) a + S16x1x512.size a ≤ S16x64x512.size a
  inb_S16x442x512_S16x64x512_0_102_0 : ∀ a, (![0, 102, 0] : Fin 3 → Nat) a + S16x64x512.size a ≤ S16x442x512.size a
  inb_S16x64x512_S16x1x512_0_17_0 : ∀ a, (![0, 17, 0] : Fin 3 → Nat) a + S16x1x512.size a ≤ S16x64x512.size a
  inb_S16x442x512_S16x64x512_0_108_0 : ∀ a, (![0, 108, 0] : Fin 3 → Nat) a + S16x64x512.size a ≤ S16x442x512.size a
  inb_S16x64x512_S16x1x512_0_18_0 : ∀ a, (![0, 18, 0] : Fin 3 → Nat) a + S16x1x512.size a ≤ S16x64x512.size a
  inb_S16x442x512_S16x64x512_0_114_0 : ∀ a, (![0, 114, 0] : Fin 3 → Nat) a + S16x64x512.size a ≤ S16x442x512.size a
  inb_S16x64x512_S16x1x512_0_19_0 : ∀ a, (![0, 19, 0] : Fin 3 → Nat) a + S16x1x512.size a ≤ S16x64x512.size a
  inb_S16x442x512_S16x64x512_0_120_0 : ∀ a, (![0, 120, 0] : Fin 3 → Nat) a + S16x64x512.size a ≤ S16x442x512.size a
  inb_S16x64x512_S16x1x512_0_20_0 : ∀ a, (![0, 20, 0] : Fin 3 → Nat) a + S16x1x512.size a ≤ S16x64x512.size a
  inb_S16x442x512_S16x64x512_0_126_0 : ∀ a, (![0, 126, 0] : Fin 3 → Nat) a + S16x64x512.size a ≤ S16x442x512.size a
  inb_S16x64x512_S16x1x512_0_21_0 : ∀ a, (![0, 21, 0] : Fin 3 → Nat) a + S16x1x512.size a ≤ S16x64x512.size a
  inb_S16x442x512_S16x64x512_0_132_0 : ∀ a, (![0, 132, 0] : Fin 3 → Nat) a + S16x64x512.size a ≤ S16x442x512.size a
  inb_S16x64x512_S16x1x512_0_22_0 : ∀ a, (![0, 22, 0] : Fin 3 → Nat) a + S16x1x512.size a ≤ S16x64x512.size a
  inb_S16x442x512_S16x64x512_0_138_0 : ∀ a, (![0, 138, 0] : Fin 3 → Nat) a + S16x64x512.size a ≤ S16x442x512.size a
  inb_S16x64x512_S16x1x512_0_23_0 : ∀ a, (![0, 23, 0] : Fin 3 → Nat) a + S16x1x512.size a ≤ S16x64x512.size a
  inb_S16x442x512_S16x64x512_0_144_0 : ∀ a, (![0, 144, 0] : Fin 3 → Nat) a + S16x64x512.size a ≤ S16x442x512.size a
  inb_S16x64x512_S16x1x512_0_24_0 : ∀ a, (![0, 24, 0] : Fin 3 → Nat) a + S16x1x512.size a ≤ S16x64x512.size a
  inb_S16x442x512_S16x64x512_0_150_0 : ∀ a, (![0, 150, 0] : Fin 3 → Nat) a + S16x64x512.size a ≤ S16x442x512.size a
  inb_S16x64x512_S16x1x512_0_25_0 : ∀ a, (![0, 25, 0] : Fin 3 → Nat) a + S16x1x512.size a ≤ S16x64x512.size a
  inb_S16x442x512_S16x64x512_0_156_0 : ∀ a, (![0, 156, 0] : Fin 3 → Nat) a + S16x64x512.size a ≤ S16x442x512.size a
  inb_S16x64x512_S16x1x512_0_26_0 : ∀ a, (![0, 26, 0] : Fin 3 → Nat) a + S16x1x512.size a ≤ S16x64x512.size a
  inb_S16x442x512_S16x64x512_0_162_0 : ∀ a, (![0, 162, 0] : Fin 3 → Nat) a + S16x64x512.size a ≤ S16x442x512.size a
  inb_S16x64x512_S16x1x512_0_27_0 : ∀ a, (![0, 27, 0] : Fin 3 → Nat) a + S16x1x512.size a ≤ S16x64x512.size a
  inb_S16x442x512_S16x64x512_0_168_0 : ∀ a, (![0, 168, 0] : Fin 3 → Nat) a + S16x64x512.size a ≤ S16x442x512.size a
  inb_S16x64x512_S16x1x512_0_28_0 : ∀ a, (![0, 28, 0] : Fin 3 → Nat) a + S16x1x512.size a ≤ S16x64x512.size a
  inb_S16x442x512_S16x64x512_0_174_0 : ∀ a, (![0, 174, 0] : Fin 3 → Nat) a + S16x64x512.size a ≤ S16x442x512.size a
  inb_S16x64x512_S16x1x512_0_29_0 : ∀ a, (![0, 29, 0] : Fin 3 → Nat) a + S16x1x512.size a ≤ S16x64x512.size a
  inb_S16x442x512_S16x64x512_0_180_0 : ∀ a, (![0, 180, 0] : Fin 3 → Nat) a + S16x64x512.size a ≤ S16x442x512.size a
  inb_S16x64x512_S16x1x512_0_30_0 : ∀ a, (![0, 30, 0] : Fin 3 → Nat) a + S16x1x512.size a ≤ S16x64x512.size a
  inb_S16x442x512_S16x64x512_0_186_0 : ∀ a, (![0, 186, 0] : Fin 3 → Nat) a + S16x64x512.size a ≤ S16x442x512.size a
  inb_S16x64x512_S16x1x512_0_31_0 : ∀ a, (![0, 31, 0] : Fin 3 → Nat) a + S16x1x512.size a ≤ S16x64x512.size a
  inb_S16x442x512_S16x64x512_0_192_0 : ∀ a, (![0, 192, 0] : Fin 3 → Nat) a + S16x64x512.size a ≤ S16x442x512.size a
  inb_S16x64x512_S16x1x512_0_32_0 : ∀ a, (![0, 32, 0] : Fin 3 → Nat) a + S16x1x512.size a ≤ S16x64x512.size a
  inb_S16x442x512_S16x64x512_0_198_0 : ∀ a, (![0, 198, 0] : Fin 3 → Nat) a + S16x64x512.size a ≤ S16x442x512.size a
  inb_S16x64x512_S16x1x512_0_33_0 : ∀ a, (![0, 33, 0] : Fin 3 → Nat) a + S16x1x512.size a ≤ S16x64x512.size a
  inb_S16x442x512_S16x64x512_0_204_0 : ∀ a, (![0, 204, 0] : Fin 3 → Nat) a + S16x64x512.size a ≤ S16x442x512.size a
  inb_S16x64x512_S16x1x512_0_34_0 : ∀ a, (![0, 34, 0] : Fin 3 → Nat) a + S16x1x512.size a ≤ S16x64x512.size a
  inb_S16x442x512_S16x64x512_0_210_0 : ∀ a, (![0, 210, 0] : Fin 3 → Nat) a + S16x64x512.size a ≤ S16x442x512.size a
  inb_S16x64x512_S16x1x512_0_35_0 : ∀ a, (![0, 35, 0] : Fin 3 → Nat) a + S16x1x512.size a ≤ S16x64x512.size a
  inb_S16x442x512_S16x64x512_0_216_0 : ∀ a, (![0, 216, 0] : Fin 3 → Nat) a + S16x64x512.size a ≤ S16x442x512.size a
  inb_S16x64x512_S16x1x512_0_36_0 : ∀ a, (![0, 36, 0] : Fin 3 → Nat) a + S16x1x512.size a ≤ S16x64x512.size a
  inb_S16x442x512_S16x64x512_0_222_0 : ∀ a, (![0, 222, 0] : Fin 3 → Nat) a + S16x64x512.size a ≤ S16x442x512.size a
  inb_S16x64x512_S16x1x512_0_37_0 : ∀ a, (![0, 37, 0] : Fin 3 → Nat) a + S16x1x512.size a ≤ S16x64x512.size a
  inb_S16x442x512_S16x64x512_0_228_0 : ∀ a, (![0, 228, 0] : Fin 3 → Nat) a + S16x64x512.size a ≤ S16x442x512.size a
  inb_S16x64x512_S16x1x512_0_38_0 : ∀ a, (![0, 38, 0] : Fin 3 → Nat) a + S16x1x512.size a ≤ S16x64x512.size a
  inb_S16x442x512_S16x64x512_0_234_0 : ∀ a, (![0, 234, 0] : Fin 3 → Nat) a + S16x64x512.size a ≤ S16x442x512.size a
  inb_S16x64x512_S16x1x512_0_39_0 : ∀ a, (![0, 39, 0] : Fin 3 → Nat) a + S16x1x512.size a ≤ S16x64x512.size a
  inb_S16x442x512_S16x64x512_0_240_0 : ∀ a, (![0, 240, 0] : Fin 3 → Nat) a + S16x64x512.size a ≤ S16x442x512.size a
  inb_S16x64x512_S16x1x512_0_40_0 : ∀ a, (![0, 40, 0] : Fin 3 → Nat) a + S16x1x512.size a ≤ S16x64x512.size a
  inb_S16x442x512_S16x64x512_0_246_0 : ∀ a, (![0, 246, 0] : Fin 3 → Nat) a + S16x64x512.size a ≤ S16x442x512.size a
  inb_S16x64x512_S16x1x512_0_41_0 : ∀ a, (![0, 41, 0] : Fin 3 → Nat) a + S16x1x512.size a ≤ S16x64x512.size a
  inb_S16x442x512_S16x64x512_0_252_0 : ∀ a, (![0, 252, 0] : Fin 3 → Nat) a + S16x64x512.size a ≤ S16x442x512.size a
  inb_S16x64x512_S16x1x512_0_42_0 : ∀ a, (![0, 42, 0] : Fin 3 → Nat) a + S16x1x512.size a ≤ S16x64x512.size a
  inb_S16x442x512_S16x64x512_0_258_0 : ∀ a, (![0, 258, 0] : Fin 3 → Nat) a + S16x64x512.size a ≤ S16x442x512.size a
  inb_S16x64x512_S16x1x512_0_43_0 : ∀ a, (![0, 43, 0] : Fin 3 → Nat) a + S16x1x512.size a ≤ S16x64x512.size a
  inb_S16x442x512_S16x64x512_0_264_0 : ∀ a, (![0, 264, 0] : Fin 3 → Nat) a + S16x64x512.size a ≤ S16x442x512.size a
  inb_S16x64x512_S16x1x512_0_44_0 : ∀ a, (![0, 44, 0] : Fin 3 → Nat) a + S16x1x512.size a ≤ S16x64x512.size a
  inb_S16x442x512_S16x64x512_0_270_0 : ∀ a, (![0, 270, 0] : Fin 3 → Nat) a + S16x64x512.size a ≤ S16x442x512.size a
  inb_S16x64x512_S16x1x512_0_45_0 : ∀ a, (![0, 45, 0] : Fin 3 → Nat) a + S16x1x512.size a ≤ S16x64x512.size a
  inb_S16x442x512_S16x64x512_0_276_0 : ∀ a, (![0, 276, 0] : Fin 3 → Nat) a + S16x64x512.size a ≤ S16x442x512.size a
  inb_S16x64x512_S16x1x512_0_46_0 : ∀ a, (![0, 46, 0] : Fin 3 → Nat) a + S16x1x512.size a ≤ S16x64x512.size a
  inb_S16x442x512_S16x64x512_0_282_0 : ∀ a, (![0, 282, 0] : Fin 3 → Nat) a + S16x64x512.size a ≤ S16x442x512.size a
  inb_S16x64x512_S16x1x512_0_47_0 : ∀ a, (![0, 47, 0] : Fin 3 → Nat) a + S16x1x512.size a ≤ S16x64x512.size a
  inb_S16x442x512_S16x64x512_0_288_0 : ∀ a, (![0, 288, 0] : Fin 3 → Nat) a + S16x64x512.size a ≤ S16x442x512.size a
  inb_S16x64x512_S16x1x512_0_48_0 : ∀ a, (![0, 48, 0] : Fin 3 → Nat) a + S16x1x512.size a ≤ S16x64x512.size a
  inb_S16x442x512_S16x64x512_0_294_0 : ∀ a, (![0, 294, 0] : Fin 3 → Nat) a + S16x64x512.size a ≤ S16x442x512.size a
  inb_S16x64x512_S16x1x512_0_49_0 : ∀ a, (![0, 49, 0] : Fin 3 → Nat) a + S16x1x512.size a ≤ S16x64x512.size a
  inb_S16x442x512_S16x64x512_0_300_0 : ∀ a, (![0, 300, 0] : Fin 3 → Nat) a + S16x64x512.size a ≤ S16x442x512.size a
  inb_S16x64x512_S16x1x512_0_50_0 : ∀ a, (![0, 50, 0] : Fin 3 → Nat) a + S16x1x512.size a ≤ S16x64x512.size a
  inb_S16x442x512_S16x64x512_0_306_0 : ∀ a, (![0, 306, 0] : Fin 3 → Nat) a + S16x64x512.size a ≤ S16x442x512.size a
  inb_S16x64x512_S16x1x512_0_51_0 : ∀ a, (![0, 51, 0] : Fin 3 → Nat) a + S16x1x512.size a ≤ S16x64x512.size a
  inb_S16x442x512_S16x64x512_0_312_0 : ∀ a, (![0, 312, 0] : Fin 3 → Nat) a + S16x64x512.size a ≤ S16x442x512.size a
  inb_S16x64x512_S16x1x512_0_52_0 : ∀ a, (![0, 52, 0] : Fin 3 → Nat) a + S16x1x512.size a ≤ S16x64x512.size a
  inb_S16x442x512_S16x64x512_0_318_0 : ∀ a, (![0, 318, 0] : Fin 3 → Nat) a + S16x64x512.size a ≤ S16x442x512.size a
  inb_S16x64x512_S16x1x512_0_53_0 : ∀ a, (![0, 53, 0] : Fin 3 → Nat) a + S16x1x512.size a ≤ S16x64x512.size a
  inb_S16x442x512_S16x64x512_0_324_0 : ∀ a, (![0, 324, 0] : Fin 3 → Nat) a + S16x64x512.size a ≤ S16x442x512.size a
  inb_S16x64x512_S16x1x512_0_54_0 : ∀ a, (![0, 54, 0] : Fin 3 → Nat) a + S16x1x512.size a ≤ S16x64x512.size a
  inb_S16x442x512_S16x64x512_0_330_0 : ∀ a, (![0, 330, 0] : Fin 3 → Nat) a + S16x64x512.size a ≤ S16x442x512.size a
  inb_S16x64x512_S16x1x512_0_55_0 : ∀ a, (![0, 55, 0] : Fin 3 → Nat) a + S16x1x512.size a ≤ S16x64x512.size a
  inb_S16x442x512_S16x64x512_0_336_0 : ∀ a, (![0, 336, 0] : Fin 3 → Nat) a + S16x64x512.size a ≤ S16x442x512.size a
  inb_S16x64x512_S16x1x512_0_56_0 : ∀ a, (![0, 56, 0] : Fin 3 → Nat) a + S16x1x512.size a ≤ S16x64x512.size a
  inb_S16x442x512_S16x64x512_0_342_0 : ∀ a, (![0, 342, 0] : Fin 3 → Nat) a + S16x64x512.size a ≤ S16x442x512.size a
  inb_S16x64x512_S16x1x512_0_57_0 : ∀ a, (![0, 57, 0] : Fin 3 → Nat) a + S16x1x512.size a ≤ S16x64x512.size a
  inb_S16x442x512_S16x64x512_0_348_0 : ∀ a, (![0, 348, 0] : Fin 3 → Nat) a + S16x64x512.size a ≤ S16x442x512.size a
  inb_S16x64x512_S16x1x512_0_58_0 : ∀ a, (![0, 58, 0] : Fin 3 → Nat) a + S16x1x512.size a ≤ S16x64x512.size a
  inb_S16x442x512_S16x64x512_0_354_0 : ∀ a, (![0, 354, 0] : Fin 3 → Nat) a + S16x64x512.size a ≤ S16x442x512.size a
  inb_S16x64x512_S16x1x512_0_59_0 : ∀ a, (![0, 59, 0] : Fin 3 → Nat) a + S16x1x512.size a ≤ S16x64x512.size a
  inb_S16x442x512_S16x64x512_0_360_0 : ∀ a, (![0, 360, 0] : Fin 3 → Nat) a + S16x64x512.size a ≤ S16x442x512.size a
  inb_S16x64x512_S16x1x512_0_60_0 : ∀ a, (![0, 60, 0] : Fin 3 → Nat) a + S16x1x512.size a ≤ S16x64x512.size a
  inb_S16x442x512_S16x64x512_0_366_0 : ∀ a, (![0, 366, 0] : Fin 3 → Nat) a + S16x64x512.size a ≤ S16x442x512.size a
  inb_S16x64x512_S16x1x512_0_61_0 : ∀ a, (![0, 61, 0] : Fin 3 → Nat) a + S16x1x512.size a ≤ S16x64x512.size a
  inb_S16x442x512_S16x64x512_0_372_0 : ∀ a, (![0, 372, 0] : Fin 3 → Nat) a + S16x64x512.size a ≤ S16x442x512.size a
  inb_S16x64x512_S16x1x512_0_62_0 : ∀ a, (![0, 62, 0] : Fin 3 → Nat) a + S16x1x512.size a ≤ S16x64x512.size a
  inb_S16x442x512_S16x64x512_0_378_0 : ∀ a, (![0, 378, 0] : Fin 3 → Nat) a + S16x64x512.size a ≤ S16x442x512.size a
  inb_S16x64x512_S16x1x512_0_63_0 : ∀ a, (![0, 63, 0] : Fin 3 → Nat) a + S16x1x512.size a ≤ S16x64x512.size a
  inb_S16x64x512_S16x64x64_0_0_0 : ∀ a, (![0, 0, 0] : Fin 3 → Nat) a + S16x64x64.size a ≤ S16x64x512.size a
  h_S16x64x64 : 0 < S16x64x64.numel
  reduces_S16x64x64_S16x64 : S16x64x64.Reduces [2] S16x64
  shapeCasts_S16x64_S16x64x1 : S16x64.ShapeCasts S16x64x1
  inb_S16x64x512_S16x64x64_0_0_6 : ∀ a, (![0, 0, 6] : Fin 3 → Nat) a + S16x64x64.size a ≤ S16x64x512.size a
  inb_S16x64x512_S16x64x64_0_0_12 : ∀ a, (![0, 0, 12] : Fin 3 → Nat) a + S16x64x64.size a ≤ S16x64x512.size a
  inb_S16x64x512_S16x64x64_0_0_18 : ∀ a, (![0, 0, 18] : Fin 3 → Nat) a + S16x64x64.size a ≤ S16x64x512.size a
  inb_S16x64x512_S16x64x64_0_0_24 : ∀ a, (![0, 0, 24] : Fin 3 → Nat) a + S16x64x64.size a ≤ S16x64x512.size a
  inb_S16x64x512_S16x64x64_0_0_30 : ∀ a, (![0, 0, 30] : Fin 3 → Nat) a + S16x64x64.size a ≤ S16x64x512.size a
  inb_S16x64x512_S16x64x64_0_0_36 : ∀ a, (![0, 0, 36] : Fin 3 → Nat) a + S16x64x64.size a ≤ S16x64x512.size a
  inb_S16x64x512_S16x64x64_0_0_42 : ∀ a, (![0, 0, 42] : Fin 3 → Nat) a + S16x64x64.size a ≤ S16x64x512.size a
  inb_S16x64x512_S16x64x64_0_0_48 : ∀ a, (![0, 0, 48] : Fin 3 → Nat) a + S16x64x64.size a ≤ S16x64x512.size a
  inb_S16x64x512_S16x64x64_0_0_54 : ∀ a, (![0, 0, 54] : Fin 3 → Nat) a + S16x64x64.size a ≤ S16x64x512.size a
  inb_S16x64x512_S16x64x64_0_0_60 : ∀ a, (![0, 0, 60] : Fin 3 → Nat) a + S16x64x64.size a ≤ S16x64x512.size a
  inb_S16x64x512_S16x64x64_0_0_66 : ∀ a, (![0, 0, 66] : Fin 3 → Nat) a + S16x64x64.size a ≤ S16x64x512.size a
  inb_S16x64x512_S16x64x64_0_0_72 : ∀ a, (![0, 0, 72] : Fin 3 → Nat) a + S16x64x64.size a ≤ S16x64x512.size a
  inb_S16x64x512_S16x64x64_0_0_78 : ∀ a, (![0, 0, 78] : Fin 3 → Nat) a + S16x64x64.size a ≤ S16x64x512.size a
  inb_S16x64x512_S16x64x64_0_0_84 : ∀ a, (![0, 0, 84] : Fin 3 → Nat) a + S16x64x64.size a ≤ S16x64x512.size a
  inb_S16x64x512_S16x64x64_0_0_90 : ∀ a, (![0, 0, 90] : Fin 3 → Nat) a + S16x64x64.size a ≤ S16x64x512.size a
  inb_S16x64x512_S16x64x64_0_0_96 : ∀ a, (![0, 0, 96] : Fin 3 → Nat) a + S16x64x64.size a ≤ S16x64x512.size a
  inb_S16x64x512_S16x64x64_0_0_102 : ∀ a, (![0, 0, 102] : Fin 3 → Nat) a + S16x64x64.size a ≤ S16x64x512.size a
  inb_S16x64x512_S16x64x64_0_0_108 : ∀ a, (![0, 0, 108] : Fin 3 → Nat) a + S16x64x64.size a ≤ S16x64x512.size a
  inb_S16x64x512_S16x64x64_0_0_114 : ∀ a, (![0, 0, 114] : Fin 3 → Nat) a + S16x64x64.size a ≤ S16x64x512.size a
  inb_S16x64x512_S16x64x64_0_0_120 : ∀ a, (![0, 0, 120] : Fin 3 → Nat) a + S16x64x64.size a ≤ S16x64x512.size a
  inb_S16x64x512_S16x64x64_0_0_126 : ∀ a, (![0, 0, 126] : Fin 3 → Nat) a + S16x64x64.size a ≤ S16x64x512.size a
  inb_S16x64x512_S16x64x64_0_0_132 : ∀ a, (![0, 0, 132] : Fin 3 → Nat) a + S16x64x64.size a ≤ S16x64x512.size a
  inb_S16x64x512_S16x64x64_0_0_138 : ∀ a, (![0, 0, 138] : Fin 3 → Nat) a + S16x64x64.size a ≤ S16x64x512.size a
  inb_S16x64x512_S16x64x64_0_0_144 : ∀ a, (![0, 0, 144] : Fin 3 → Nat) a + S16x64x64.size a ≤ S16x64x512.size a
  inb_S16x64x512_S16x64x64_0_0_150 : ∀ a, (![0, 0, 150] : Fin 3 → Nat) a + S16x64x64.size a ≤ S16x64x512.size a
  inb_S16x64x512_S16x64x64_0_0_156 : ∀ a, (![0, 0, 156] : Fin 3 → Nat) a + S16x64x64.size a ≤ S16x64x512.size a
  inb_S16x64x512_S16x64x64_0_0_162 : ∀ a, (![0, 0, 162] : Fin 3 → Nat) a + S16x64x64.size a ≤ S16x64x512.size a
  inb_S16x64x512_S16x64x64_0_0_168 : ∀ a, (![0, 0, 168] : Fin 3 → Nat) a + S16x64x64.size a ≤ S16x64x512.size a
  inb_S16x64x512_S16x64x64_0_0_174 : ∀ a, (![0, 0, 174] : Fin 3 → Nat) a + S16x64x64.size a ≤ S16x64x512.size a
  inb_S16x64x512_S16x64x64_0_0_180 : ∀ a, (![0, 0, 180] : Fin 3 → Nat) a + S16x64x64.size a ≤ S16x64x512.size a
  inb_S16x64x512_S16x64x64_0_0_186 : ∀ a, (![0, 0, 186] : Fin 3 → Nat) a + S16x64x64.size a ≤ S16x64x512.size a
  inb_S16x64x512_S16x64x64_0_0_192 : ∀ a, (![0, 0, 192] : Fin 3 → Nat) a + S16x64x64.size a ≤ S16x64x512.size a
  inb_S16x64x512_S16x64x64_0_0_198 : ∀ a, (![0, 0, 198] : Fin 3 → Nat) a + S16x64x64.size a ≤ S16x64x512.size a
  inb_S16x64x512_S16x64x64_0_0_204 : ∀ a, (![0, 0, 204] : Fin 3 → Nat) a + S16x64x64.size a ≤ S16x64x512.size a
  inb_S16x64x512_S16x64x64_0_0_210 : ∀ a, (![0, 0, 210] : Fin 3 → Nat) a + S16x64x64.size a ≤ S16x64x512.size a
  inb_S16x64x512_S16x64x64_0_0_216 : ∀ a, (![0, 0, 216] : Fin 3 → Nat) a + S16x64x64.size a ≤ S16x64x512.size a
  inb_S16x64x512_S16x64x64_0_0_222 : ∀ a, (![0, 0, 222] : Fin 3 → Nat) a + S16x64x64.size a ≤ S16x64x512.size a
  inb_S16x64x512_S16x64x64_0_0_228 : ∀ a, (![0, 0, 228] : Fin 3 → Nat) a + S16x64x64.size a ≤ S16x64x512.size a
  inb_S16x64x512_S16x64x64_0_0_234 : ∀ a, (![0, 0, 234] : Fin 3 → Nat) a + S16x64x64.size a ≤ S16x64x512.size a
  inb_S16x64x512_S16x64x64_0_0_240 : ∀ a, (![0, 0, 240] : Fin 3 → Nat) a + S16x64x64.size a ≤ S16x64x512.size a
  inb_S16x64x512_S16x64x64_0_0_246 : ∀ a, (![0, 0, 246] : Fin 3 → Nat) a + S16x64x64.size a ≤ S16x64x512.size a
  inb_S16x64x512_S16x64x64_0_0_252 : ∀ a, (![0, 0, 252] : Fin 3 → Nat) a + S16x64x64.size a ≤ S16x64x512.size a
  inb_S16x64x512_S16x64x64_0_0_258 : ∀ a, (![0, 0, 258] : Fin 3 → Nat) a + S16x64x64.size a ≤ S16x64x512.size a
  inb_S16x64x512_S16x64x64_0_0_264 : ∀ a, (![0, 0, 264] : Fin 3 → Nat) a + S16x64x64.size a ≤ S16x64x512.size a
  inb_S16x64x512_S16x64x64_0_0_270 : ∀ a, (![0, 0, 270] : Fin 3 → Nat) a + S16x64x64.size a ≤ S16x64x512.size a
  inb_S16x64x512_S16x64x64_0_0_276 : ∀ a, (![0, 0, 276] : Fin 3 → Nat) a + S16x64x64.size a ≤ S16x64x512.size a
  inb_S16x64x512_S16x64x64_0_0_282 : ∀ a, (![0, 0, 282] : Fin 3 → Nat) a + S16x64x64.size a ≤ S16x64x512.size a
  inb_S16x64x512_S16x64x64_0_0_288 : ∀ a, (![0, 0, 288] : Fin 3 → Nat) a + S16x64x64.size a ≤ S16x64x512.size a
  inb_S16x64x512_S16x64x64_0_0_294 : ∀ a, (![0, 0, 294] : Fin 3 → Nat) a + S16x64x64.size a ≤ S16x64x512.size a
  inb_S16x64x512_S16x64x64_0_0_300 : ∀ a, (![0, 0, 300] : Fin 3 → Nat) a + S16x64x64.size a ≤ S16x64x512.size a
  inb_S16x64x512_S16x64x64_0_0_306 : ∀ a, (![0, 0, 306] : Fin 3 → Nat) a + S16x64x64.size a ≤ S16x64x512.size a
  inb_S16x64x512_S16x64x64_0_0_312 : ∀ a, (![0, 0, 312] : Fin 3 → Nat) a + S16x64x64.size a ≤ S16x64x512.size a
  inb_S16x64x512_S16x64x64_0_0_318 : ∀ a, (![0, 0, 318] : Fin 3 → Nat) a + S16x64x64.size a ≤ S16x64x512.size a
  inb_S16x64x512_S16x64x64_0_0_324 : ∀ a, (![0, 0, 324] : Fin 3 → Nat) a + S16x64x64.size a ≤ S16x64x512.size a
  inb_S16x64x512_S16x64x64_0_0_330 : ∀ a, (![0, 0, 330] : Fin 3 → Nat) a + S16x64x64.size a ≤ S16x64x512.size a
  inb_S16x64x512_S16x64x64_0_0_336 : ∀ a, (![0, 0, 336] : Fin 3 → Nat) a + S16x64x64.size a ≤ S16x64x512.size a
  inb_S16x64x512_S16x64x64_0_0_342 : ∀ a, (![0, 0, 342] : Fin 3 → Nat) a + S16x64x64.size a ≤ S16x64x512.size a
  inb_S16x64x512_S16x64x64_0_0_348 : ∀ a, (![0, 0, 348] : Fin 3 → Nat) a + S16x64x64.size a ≤ S16x64x512.size a
  inb_S16x64x512_S16x64x64_0_0_354 : ∀ a, (![0, 0, 354] : Fin 3 → Nat) a + S16x64x64.size a ≤ S16x64x512.size a
  inb_S16x64x512_S16x64x64_0_0_360 : ∀ a, (![0, 0, 360] : Fin 3 → Nat) a + S16x64x64.size a ≤ S16x64x512.size a
  inb_S16x64x512_S16x64x64_0_0_366 : ∀ a, (![0, 0, 366] : Fin 3 → Nat) a + S16x64x64.size a ≤ S16x64x512.size a
  inb_S16x64x512_S16x64x64_0_0_372 : ∀ a, (![0, 0, 372] : Fin 3 → Nat) a + S16x64x64.size a ≤ S16x64x512.size a
  inb_S16x64x512_S16x64x64_0_0_378 : ∀ a, (![0, 0, 378] : Fin 3 → Nat) a + S16x64x64.size a ≤ S16x64x512.size a
  concatenates_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x1_S16x64x64_d2 : Shape.Concatenates (S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: S16x64x1 :: []) S16x64x64 2
  inb_S16x64x64_S16x64x64_0_0_0 : ∀ a, (![0, 0, 0] : Fin 3 → Nat) a + S16x64x64.size a ≤ S16x64x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x442x512.size a ≤ S128x442x512.size a
  hwx0_0 : ∀ i : grid0.Coords, EltTy.bits .f32 = 32 ∨ (Rect.block (s := S128x442x512) S16x442x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x64x64.size a ≤ S128x64x64.size a
  hwx0_1 : ∀ i : grid0.Coords, EltTy.bits .f32 = 32 ∨ (Rect.block (s := S128x64x64) S16x64x64.size (cc0_transform_1 i) (hinb0_1 i)).WholeWords (EltTy.packing .f32)

variable [Facts₀]

abbrev win0_0 : Pipeline.Window sig grid0 :=
  Pipeline.Window.ofSpec (Memref.whole main_v0) S16x442x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x64x64.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S128x384x384 : Shape := ⟨3, ![128, 384, 384]⟩
abbrev S_ : Shape := ⟨0, ![]⟩
abbrev S128x64x64 : Shape := ⟨3, ![128, 64, 64]⟩

abbrev nBuf : Space → Nat
  | .hbm => 4
  | .vmem => 0
  | .smem => 0
  | _ => 0

abbrev bufTy : (tb : Table) → Fin (tcTables nBuf tb) → BufTy
  | .hbm, ⟨0, _⟩ => ⟨S128x384x384, .f32⟩
  | .hbm, ⟨1, _⟩ => ⟨S_, .f32⟩
  | .hbm, ⟨2, _⟩ => ⟨S_, .f32⟩
  | .hbm, ⟨3, _⟩ => ⟨S128x64x64, .f32⟩
  | _, _ => ⟨S128x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bcast_S_S_ : S_.BroadcastsInDim S_ (![] : Fin 0 → Fin S_.rank)
  reduceWindows_S128x384x384_S128x64x64_w1s1p0_0_w64s6p0_58_w64s6p0_58 : S128x384x384.ReduceWindows (![1, 64, 64] : Fin 3 → Nat) ![1, 6, 6] ![0, 0, 0] ![0, 58, 58] S128x64x64
  h_S_ : 0 < S_.numel

variable [Facts₀]

class Facts : Prop extends Facts₀ where

variable [Facts]
-- ==== Proof.BlockMax.lean ====
/-
  The two reductions of the pooling body, read at an index over the extended reals.

  A window of 64 rows `L : [16, 64, 512]` reduced by `max` along its rows and stored as a slab `[16, 1, 512]` holds, at
  `(f, 0, q)`, the maximum over `a < 64` of `L[f, a, q]`; a window of 64 columns `Y : [16, 64, 64]` reduced by `max`
  along its columns and kept as a column `[16, 64, 1]` holds, at `(f, i, 0)`, the maximum over `b < 64` of
  `Y[f, i, b]`. The accumulator pattern `0xFF800000` is −∞, the bottom `⊥` of the extended reals, so both maxima are
  folds of `max` from `⊥`.
-/
import Idealize.ShloMosaic.PureOps.Ideal
import Idealize.ShloMosaic.PureOps.Ideal.Laws
import Idealize.ShloMosaic.Lib.ValueIdx
import Idealize.ShloMosaic.Lib.Pipeline.Value

noncomputable section

namespace Cert.Pool

open Idealize.ShloMosaic Idealize.ShloMosaic.ValueIdx

/-- The f32 pattern of −∞ denotes the bottom of the extended reals. -/
theorem ofBits_neg_inf : Ideal.ofBits .f32 0xFF800000#32 = (⊥ : EReal) := by
  simp [Ideal.ofBits, Ideal.ieee]

/-- A `max`-reduction of a `[16, 64, 512]` window along its rows, stored as a `[16, 1, 512]` slab, read at `(f, z, q)`:
    the maximum of column `q` of plane `f` over the window's 64 rows. -/
theorem rowSlab_apply (L : FVec Ideal ⟨3, ![16, 64, 512]⟩ .f32)
    (h1 : (⟨3, ![16, 64, 512]⟩ : Shape).ShapeCasts ⟨3, ![16, 64, 512]⟩)
    (h2 : (⟨3, ![16, 64, 512]⟩ : Shape).Reduces [1] ⟨2, ![16, 512]⟩)
    (hφ : FKind.Formats .f32) (hacc : (0xFF800000#32 : BitVec 32) = FKind.maximumf.neutral .f32 hφ)
    (h3 : (⟨2, ![16, 512]⟩ : Shape).ShapeCasts ⟨3, ![16, 1, 512]⟩)
    (f : Fin 16) (z : Fin 1) (q : Fin 512) :
    shapeCast ⟨3, ![16, 1, 512]⟩
        (multiReduction .maximumf [1] ⟨2, ![16, 512]⟩ (shapeCast ⟨3, ![16, 64, 512]⟩ L h1) 0xFF800000#32 h2 hφ hacc) h3
        (ix3 f z q)
      = (Finset.univ : Finset (Fin 64)).fold max ⊥ fun a => L (ix3 f a q) := by
  have hz : z.val = 0 := by have := z.isLt; omega
  rw [shapeCast_apply _ h3 (ix3 f z q) (ix2 f q)
    (by rw [Shape.rowMajor_val_two, Shape.rowMajor_val_three]; show f.val * 512 + q.val = (f.val * 1 + z.val) * 512 + q.val
        rw [hz]; omega)]
  rw [Ideal.multiReduction_maximumf_single, shapeCast_self, Ideal.ofBits_def, ofBits_neg_inf]
  refine congrArg (fun g => Finset.fold max ⊥ g Finset.univ) (funext fun a => congrArg L ?_)
  funext d; apply Fin.ext
  match d with
  | ⟨0, _⟩ => rfl
  | ⟨1, _⟩ => rfl
  | ⟨2, _⟩ => rfl

/-- A `max`-reduction of a `[16, 64, 64]` window along its columns, kept as a `[16, 64, 1]` column, read at
    `(f, i, z)`: the maximum of row `i` of plane `f` over the window's 64 columns. -/
theorem colColumn_apply (Y : FVec Ideal ⟨3, ![16, 64, 64]⟩ .f32)
    (h2 : (⟨3, ![16, 64, 64]⟩ : Shape).Reduces [2] ⟨2, ![16, 64]⟩)
    (hφ : FKind.Formats .f32) (hacc : (0xFF800000#32 : BitVec 32) = FKind.maximumf.neutral .f32 hφ)
    (h3 : (⟨2, ![16, 64]⟩ : Shape).ShapeCasts ⟨3, ![16, 64, 1]⟩)
    (f : Fin 16) (i : Fin 64) (z : Fin 1) :
    shapeCast ⟨3, ![16, 64, 1]⟩ (multiReduction .maximumf [2] ⟨2, ![16, 64]⟩ Y 0xFF800000#32 h2 hφ hacc) h3 (ix3 f i z)
      = (Finset.univ : Finset (Fin 64)).fold max ⊥ fun b => Y (ix3 f i b) := by
  have hz : z.val = 0 := by have := z.isLt; omega
  rw [shapeCast_apply _ h3 (ix3 f i z) (ix2 f i)
    (by rw [Shape.rowMajor_val_two, Shape.rowMajor_val_three]; show f.val * 64 + i.val = (f.val * 64 + i.val) * 1 + z.val
        rw [hz]; omega)]
  rw [Ideal.multiReduction_maximumf_single, Ideal.ofBits_def, ofBits_neg_inf]
  refine congrArg (fun g => Finset.fold max ⊥ g Finset.univ) (funext fun b => congrArg Y ?_)
  funext d; apply Fin.ext
  match d with
  | ⟨0, _⟩ => rfl
  | ⟨1, _⟩ => rfl
  | ⟨2, _⟩ => rfl

end Cert.Pool

end
-- ==== Proof.Body.lean ====
/-
  What one grid point's body leaves in its output block, over the extended reals.

  The body sees a staged block `X : [16, 442, 512]` of the padded image. Its first pass stores, for each `i < 64`, the
  slab `i` of a scratch `[16, 64, 512]`: the maximum of rows `6 i … 6 i + 63` of `X`, column by column. The 64 slabs tile
  the scratch, and each is the restriction of ONE function of the scratch index, `slab X (f, i, q) = max_a X[f, 6 i + a, q]`;
  so after the first pass the scratch reads `slab X` everywhere. The second pass loads, for each `j < 64`, the scratch's
  columns `6 j … 6 j + 63`, takes their maximum along the columns and makes it column `j` of the output block; so the
  block holds at `(f, i, j)` the maximum over `b < 64` of `slab X (f, i, 6 j + b)` (`out_apply`).
-/
import proofs.«424409_j61237643707061_3_alg».proof.Proof.Gen.KernelIdeal.Frame
import proofs.«424409_j61237643707061_3_alg».proof.Proof.BlockMax

set_option maxRecDepth 16384

noncomputable section

namespace Cert.KernelIdeal.PoolBody

open Cert.KernelIdeal Cert.KernelIdeal.Gen Cert.Pool
open Idealize.ShloMosaic Idealize.ShloMosaic.TcCoe Idealize.ShloMosaic.Tactic Idealize.ShloMosaic.ValueIdx
open Idealize.SL Idealize.SL.Sem

/-- Entry `(f, r, q)` of a staged block, `⊥` outside its 442 × 512 extent (the body never reads there). -/
def blockAt (X : Vec Ideal S16x442x512 .f32) (f : Fin 16) (r q : Nat) : EReal :=
  if h : r < 442 ∧ q < 512 then X (ix3 f ⟨r, h.1⟩ ⟨q, h.2⟩) else ⊥

/-- The maximum of column `q` of plane `f` of the block over the 64 rows from `6 i`. -/
def slabN (X : Vec Ideal S16x442x512 .f32) (f : Fin 16) (i : Fin 64) (q : Nat) : EReal :=
  (Finset.univ : Finset (Fin 64)).fold max ⊥ fun a => blockAt X f (6 * i.val + a.val) q

/-- What the scratch holds after the first pass, as one function of its index. -/
def slab (X : Vec Ideal S16x442x512 .f32) : S16x64x512.Idx → EReal :=
  fun y => slabN X (y 0) (y 1) (y 2).val

/-- The first pass's store number `i0`: the maximum over the 64 rows from `r0 = 6 i0` of the block, stored as slab `i0`
    of the scratch, is `slab X` at the slab's indices. -/
theorem rowPiece (X : Vec Ideal S16x442x512 .f32) (i0 r0 : Nat) (hr : r0 = 6 * i0) (hi : i0 < 64)
    (inbS : ∀ a, (![0, i0, 0] : Fin 3 → Nat) a + (![16, 1, 512] : Fin 3 → Nat) a ≤ S16x64x512.size a)
    (inbL : ∀ a, (![0, r0, 0] : Fin 3 → Nat) a + (![16, 64, 512] : Fin 3 → Nat) a ≤ S16x442x512.size a)
    (h1 : S16x64x512.ShapeCasts S16x64x512) (h2 : S16x64x512.Reduces [1] S16x512)
    (hφ : FKind.Formats .f32) (hacc : (0xFF800000#32 : BitVec 32) = FKind.maximumf.neutral .f32 hφ)
    (h3 : S16x512.ShapeCasts S16x1x512)
    (x : (Rect.unit (s := S16x64x512) ![0, i0, 0] ![16, 1, 512] inbS).shape.Idx) :
    shapeCast S16x1x512 (multiReduction (F := Ideal) .maximumf [1] S16x512
        (shapeCast S16x64x512 (View.ld X (Rect.unit (s := S16x442x512) ![0, r0, 0] ![16, 64, 512] inbL)) h1)
        0xFF800000#32 h2 hφ hacc) h3 x
      = slab X ((Rect.unit (s := S16x64x512) ![0, i0, 0] ![16, 1, 512] inbS).emb x) := by
  subst hr
  obtain ⟨f, z, q, rfl⟩ : ∃ (f : Fin 16) (z : Fin 1) (q : Fin 512), x = ix3 f z q := ⟨x 0, x 1, x 2, eq_ix3 x⟩
  have hz : z.val = 0 := by have := z.isLt; omega
  refine (rowSlab_apply _ h1 h2 hφ hacc h3 f z q).trans ?_
  have hemb : (Rect.unit (s := S16x64x512) ![0, i0, 0] ![16, 1, 512] inbS).emb (ix3 f z q)
      = (ix3 f (⟨i0, hi⟩ : Fin 64) q : S16x64x512.Idx) := by
    funext d; apply Fin.ext
    match d with
    | ⟨0, _⟩ => show 0 + 1 * f.val = f.val; omega
    | ⟨1, _⟩ => show i0 + 1 * z.val = i0; omega
    | ⟨2, _⟩ => show 0 + 1 * q.val = q.val; omega
  rw [hemb]
  show _ = slabN X f (⟨i0, hi⟩ : Fin 64) q.val
  unfold slabN
  refine congrArg (fun g => Finset.fold max ⊥ g Finset.univ) (funext fun a => ?_)
  have ha := a.isLt
  have hq := q.isLt
  unfold blockAt
  rw [dif_pos (show 6 * i0 + a.val < 442 ∧ q.val < 512 by omega)]
  show X ((Rect.unit (s := S16x442x512) ![0, 6 * i0, 0] ![16, 64, 512] inbL).idx (ix3 f a q)) = _
  refine congrArg X (funext fun d => Fin.ext ?_)
  match d with
  | ⟨0, _⟩ => show 0 + 1 * f.val = f.val; omega
  | ⟨1, _⟩ => show 6 * i0 + 1 * a.val = 6 * i0 + a.val; omega
  | ⟨2, _⟩ => show 0 + 1 * q.val = q.val; omega

/-- Every store of the first pass writes its slab of `slab X`. -/
theorem scratch_pieces (c : Dev nD) (arg1 : Memref sig .tc .vmem S16x442x512 .f32) (harg1 : arg1.IsWhole)
    (x0 : Vec Ideal S16x442x512 .f32) :
    ∀ p ∈ kernelRun0_A.sl.HS0_64 (F := Ideal) c arg1 harg1 x0, ∀ x : p.1.shape.Idx, p.2 x = slab x0 (p.1.emb x) := by
  unfold kernelRun0_A.sl.HS0_64
  sl_unfold_run_names
  simp only [View.readAt_eq_ld, harg1.read_unread]
  -- the 72 payload definitions of the first pass (some stores' arithmetic is split over two of them)
  simp only [
    k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32,
    k0_pay33, k0_pay34, k0_pay35, k0_pay36, k0_pay37, k0_pay38, k0_pay39, k0_pay40, k0_pay41, k0_pay42,
    k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62,
    k0_pay63, k0_pay64, k0_pay65, k0_pay66, k0_pay67, k0_pay68, k0_pay69, k0_pay70, k0_pay71, k0_pay72,
    k0_pay73]
  repeat' (first | exact fun _ h => absurd h List.not_mem_nil | refine List.forall_mem_cons.2 ⟨?_, ?_⟩)
  all_goals (intro x; dsimp only; refine rowPiece x0 _ _ ?_ ?_ _ _ _ _ _ _ _ x <;> decide)

/-- The 64 slabs tile the scratch. -/
theorem scratch_cover (c : Dev nD) (arg1 : Memref sig .tc .vmem S16x442x512 .f32) (harg1 : arg1.IsWhole)
    (x0 : Vec Ideal S16x442x512 .f32) (y : S16x64x512.Idx) :
    ∃ p ∈ kernelRun0_A.sl.HS0_64 (F := Ideal) c arg1 harg1 x0, y ∈ p.1.set :=
  View.cover_of_tiledL (kernelRun0_A.sl.HS0_64 (F := Ideal) c arg1 harg1 x0) S16x1x512.size (by sl_kernel_rfl) y

/-- After the first pass the scratch reads `slab X` at every index. -/
theorem scratch_eq (c : Dev nD) (arg1 : Memref sig .tc .vmem S16x442x512 .f32) (harg1 : arg1.IsWhole)
    (x0 : Vec Ideal S16x442x512 .f32) (y : S16x64x512.Idx) :
    View.canon (kernelRun0_A.sl.HS0_64 (F := Ideal) c arg1 harg1 x0) y = slab x0 y :=
  View.canon_apply_of_pieces (slab x0) _ (scratch_pieces c arg1 harg1 x0) y (scratch_cover c arg1 harg1 x0 y)

end Cert.KernelIdeal.PoolBody

end
-- ==== Proof.BodyOut.lean ====
/-
  The second pass of the body and the output block.

  Column `k` of the output block is the maximum, along the columns, of the scratch's columns `6 k … 6 k + 63`; the
  scratch reads `slab X` (the first pass), so column `k` holds at `(f, i, 0)` the value
  `colMax X f i k = max_b slab X (f, i, 6 k + b)`. The output block is the concatenation of the 64 columns along the
  last axis, and a concatenation of unit-width pieces read at `(f, i, j)` is piece `j` at `(f, i, 0)`; so the block
  holds `colMax X f i j` at `(f, i, j)`.
-/
import proofs.«424409_j61237643707061_3_alg».proof.Proof.Body

set_option maxRecDepth 16384

noncomputable section

namespace Cert.KernelIdeal.PoolBody

open Cert.KernelIdeal Cert.KernelIdeal.Gen Cert.Pool
open Idealize.ShloMosaic Idealize.ShloMosaic.TcCoe Idealize.ShloMosaic.Tactic Idealize.ShloMosaic.ValueIdx
open Idealize.SL Idealize.SL.Sem

/-- The maximum of row `i` of plane `f` of the scratch over the 64 columns from `6 k`. -/
def colMax (X : Vec Ideal S16x442x512 .f32) (f : Fin 16) (i : Fin 64) (k : Nat) : EReal :=
  (Finset.univ : Finset (Fin 64)).fold max ⊥ fun b => slabN X f i (6 * k + b.val)

/-- The second pass's column number `k`: the scratch — the pieces `L`, reading `slab X` — loaded at columns
    `c0 = 6 k … 6 k + 63` and reduced by `max` along them, at `(f, i, 0)`. -/
theorem colPiece (L : List (View.Piece (Elt Ideal) S16x64x512 .f32)) (X : Vec Ideal S16x442x512 .f32)
    (hL : ∀ y, View.canon L y = slab X y)
    (v : View sig .tc .vmem S16x64x512 .f32) (c0 k : Nat) (hk : c0 = 6 * k) (hc : k < 64)
    (inb : ∀ a, (![0, 0, c0] : Fin 3 → Nat) a + (![16, 64, 64] : Fin 3 → Nat) a ≤ S16x64x512.size a)
    (h2 : S16x64x64.Reduces [2] S16x64)
    (hφ : FKind.Formats .f32) (hacc : (0xFF800000#32 : BitVec 32) = FKind.maximumf.neutral .f32 hφ)
    (h3 : S16x64.ShapeCasts S16x64x1) (f : Fin 16) (i : Fin 64) (z : Fin 1) :
    shapeCast S16x64x1 (multiReduction (F := Ideal) .maximumf [2] S16x64
        (v.readCov L (Rect.unit (s := S16x64x512) ![0, 0, c0] ![16, 64, 64] inb).toLoadRect)
        0xFF800000#32 h2 hφ hacc) h3 (ix3 f i z)
      = colMax X f i k := by
  subst hk
  refine (colColumn_apply _ h2 hφ hacc h3 f i z).trans ?_
  unfold colMax
  refine congrArg (fun g => Finset.fold max ⊥ g Finset.univ) (funext fun b => ?_)
  have hb := b.isLt
  rw [View.readCov_eq_canon']
  show View.canon L ((Rect.unit (s := S16x64x512) ![0, 0, 6 * k] ![16, 64, 64] inb).toLoadRect.idx (ix3 f i b)) = _
  rw [hL]
  have e : (Rect.unit (s := S16x64x512) ![0, 0, 6 * k] ![16, 64, 64] inb).toLoadRect.idx (ix3 f i b)
      = (ix3 f i (⟨6 * k + b.val, by omega⟩ : Fin 512) : S16x64x512.Idx) := by
    funext d; apply Fin.ext
    match d with
    | ⟨0, _⟩ => show 0 + 1 * f.val = f.val; omega
    | ⟨1, _⟩ => show 0 + 1 * i.val = i.val; omega
    | ⟨2, _⟩ => show 6 * k + 1 * b.val = 6 * k + b.val; omega
  rw [e]
  rfl

/-! ## A concatenation of unit-width columns -/

/-- From position `k` on, the pieces `xs` are columns `[16, 64, 1]` whose entries at `(f, i, 0)` are `G k, G (k + 1), …`. -/
def ColsFrom {α : Type} (f : Fin 16) (i : Fin 64) (G : Nat → α) (k : Nat) (xs : List ((s : Shape) × (s.Idx → α))) : Prop :=
  ∀ (n : Nat) (hn : n < xs.length), ∃ g : S16x64x1.Idx → α, xs[n] = ⟨S16x64x1, g⟩ ∧ g (ix3 f i (0 : Fin 1)) = G (k + n)

theorem colsFrom_nil {α : Type} (f : Fin 16) (i : Fin 64) (G : Nat → α) (k : Nat) : ColsFrom f i G k [] :=
  fun n hn => absurd hn (Nat.not_lt_zero n)

theorem colsFrom_cons {α : Type} (f : Fin 16) (i : Fin 64) (G : Nat → α) (k : Nat) (g : S16x64x1.Idx → α)
    (xs : List ((s : Shape) × (s.Idx → α))) (hg : g (ix3 f i (0 : Fin 1)) = G k) (hxs : ColsFrom f i G (k + 1) xs) :
    ColsFrom f i G k (⟨S16x64x1, g⟩ :: xs) := by
  intro n hn
  match n with
  | 0 => exact ⟨g, rfl, hg⟩
  | n + 1 =>
    obtain ⟨g', e, hg'⟩ := hxs n (by simpa using hn)
    refine ⟨g', by simpa using e, ?_⟩
    rw [hg']; congr 1; omega

/-- Such a concatenation, 64 columns into `[16, 64, 64]`, read at `(f, i, j)`, is `G j`. -/
theorem concat_of_colsFrom {α : Type} (xs : List ((s : Shape) × (s.Idx → α)))
    (h : Shape.Concatenates (xs.map (·.1)) S16x64x64 (2 : Fin 3)) (f : Fin 16) (i : Fin 64) (G : Nat → α)
    (hcols : ColsFrom f i G 0 xs) (hlen : xs.length = 64) (j : Fin 64) :
    concatenate S16x64x64 (2 : Fin 3) xs h (ix3 f i j) = G j.val := by
  have hk : j.val < xs.length := by rw [hlen]; exact j.isLt
  obtain ⟨g, hg, hG⟩ := hcols j.val hk
  rw [Nat.zero_add] at hG
  rw [← hG]
  refine concatenate_apply_piece (2 : Fin 3) xs h (ix3 f i j) j.val hk S16x64x1 g hg rfl j.val ?_
    (ix3 f i (0 : Fin 1)) ?_ ?_
  · -- every piece before column `j` is one column wide
    have h1 : ∀ n ∈ (((xs.take j.val).map (·.1)).map fun s : Shape =>
        if h : s.rank = S16x64x64.rank then s.size ((2 : Fin 3).cast h.symm) else 0), n = 1 := by
      intro n hn
      simp only [List.mem_map] at hn
      obtain ⟨s, ⟨p, hp, rfl⟩, rfl⟩ := hn
      obtain ⟨m, hm, rfl⟩ := List.getElem_of_mem (List.mem_of_mem_take hp)
      obtain ⟨g', e, -⟩ := hcols m hm
      rw [e]
      rfl
    rw [List.sum_eq_card_nsmul _ 1 h1]
    simp [List.length_take, Nat.min_eq_left (Nat.le_of_lt hk)]
  · intro b hb
    match b with
    | ⟨0, _⟩ => rfl
    | ⟨1, _⟩ => rfl
    | ⟨2, _⟩ => exact absurd rfl hb
  · show j.val + 0 = j.val
    rfl

/-! ## The output block -/

theorem hz3 : (![0, 0, 0] : Fin 3 → Nat) = fun _ => 0 := funext fun a => by fin_cases a <;> rfl

/-- What the body leaves in its output block, at `(f, i, j)`: the maximum over the 64 columns from `6 j` of the
    scratch's row `i`, that is of the block's column maxima over the 64 rows from `6 i`. -/
theorem out_apply (c : Dev nD) (i : grid0.Coords) (arg1 : Memref sig .tc .vmem S16x442x512 .f32) (harg1 : arg1.IsWhole)
    (arg2 : Memref sig .tc .vmem S16x64x64 .f32) (harg2 : arg2.IsWhole)
    (arg3 : Memref sig .tc .vmem S16x64x512 .f32) (harg3 : arg3.IsWhole)
    (x0 : Vec Ideal S16x442x512 .f32) (f : Fin 16) (i' j : Fin 64) :
    out0_A_1 (F := Ideal) c i arg1 harg1 arg2 harg2 arg3 harg3 x0 (ix3 f i' j) = colMax x0 f i' j.val := by
  unfold out0_A_1
  rw [View.read_writes_eq_canon _ _ _ (cover0_A_1 c i arg1 harg1 arg2 harg2 arg3 harg3 x0)]
  unfold kernelRun0_A
  dsimp only
  rw [View.canon_unit_zero hz3]
  unfold k0_pay1
  dsimp only
  -- the names the run gave the 64 columns and their loads, and the columns' payload definitions
  simp only [
    kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17,
    kernelRun0_A.sl.r_18, kernelRun0_A.sl.r_19, kernelRun0_A.sl.r_20, kernelRun0_A.sl.r_21,
    kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33,
    kernelRun0_A.sl.r_34, kernelRun0_A.sl.r_35, kernelRun0_A.sl.r_36, kernelRun0_A.sl.r_37,
    kernelRun0_A.sl.r_38, kernelRun0_A.sl.r_39, kernelRun0_A.sl.r_40, kernelRun0_A.sl.r_41,
    kernelRun0_A.sl.r_42, kernelRun0_A.sl.r_43, kernelRun0_A.sl.r_44, kernelRun0_A.sl.r_45,
    kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53,
    kernelRun0_A.sl.r_54, kernelRun0_A.sl.r_55, kernelRun0_A.sl.r_56, kernelRun0_A.sl.r_57,
    kernelRun0_A.sl.r_58, kernelRun0_A.sl.r_59, kernelRun0_A.sl.r_60, kernelRun0_A.sl.r_61,
    kernelRun0_A.sl.r_62, kernelRun0_A.sl.r_63, kernelRun0_A.sl.r_64, kernelRun0_A.sl.r_65,
    kernelRun0_A.sl.r_66, kernelRun0_A.sl.r_67, kernelRun0_A.sl.r_68, kernelRun0_A.sl.r_69,
    kernelRun0_A.sl.r_70,
    kernelRun0_A.sl.v384, kernelRun0_A.sl.v387, kernelRun0_A.sl.v390, kernelRun0_A.sl.v393,
    kernelRun0_A.sl.v396, kernelRun0_A.sl.v399, kernelRun0_A.sl.v402, kernelRun0_A.sl.v405,
    kernelRun0_A.sl.v408, kernelRun0_A.sl.v411, kernelRun0_A.sl.v414, kernelRun0_A.sl.v417,
    kernelRun0_A.sl.v420, kernelRun0_A.sl.v423, kernelRun0_A.sl.v426, kernelRun0_A.sl.v429,
    kernelRun0_A.sl.v432, kernelRun0_A.sl.v435, kernelRun0_A.sl.v438, kernelRun0_A.sl.v441,
    kernelRun0_A.sl.v444, kernelRun0_A.sl.v447, kernelRun0_A.sl.v450, kernelRun0_A.sl.v453,
    kernelRun0_A.sl.v456, kernelRun0_A.sl.v459, kernelRun0_A.sl.v462, kernelRun0_A.sl.v465,
    kernelRun0_A.sl.v468, kernelRun0_A.sl.v471, kernelRun0_A.sl.v474, kernelRun0_A.sl.v477,
    kernelRun0_A.sl.v480, kernelRun0_A.sl.v483, kernelRun0_A.sl.v486, kernelRun0_A.sl.v489,
    kernelRun0_A.sl.v492, kernelRun0_A.sl.v495, kernelRun0_A.sl.v498, kernelRun0_A.sl.v501,
    kernelRun0_A.sl.v504, kernelRun0_A.sl.v507, kernelRun0_A.sl.v510, kernelRun0_A.sl.v513,
    kernelRun0_A.sl.v516, kernelRun0_A.sl.v519, kernelRun0_A.sl.v522, kernelRun0_A.sl.v525,
    kernelRun0_A.sl.v528, kernelRun0_A.sl.v531, kernelRun0_A.sl.v534, kernelRun0_A.sl.v537,
    kernelRun0_A.sl.v540, kernelRun0_A.sl.v543, kernelRun0_A.sl.v546, kernelRun0_A.sl.v549,
    kernelRun0_A.sl.v552, kernelRun0_A.sl.v555, kernelRun0_A.sl.v558, kernelRun0_A.sl.v561,
    kernelRun0_A.sl.v564, kernelRun0_A.sl.v567, kernelRun0_A.sl.v570, kernelRun0_A.sl.v573,
    k0_pay74, k0_pay75, k0_pay76, k0_pay77, k0_pay78, k0_pay79, k0_pay80, k0_pay81, k0_pay82, k0_pay83,
    k0_pay84, k0_pay85, k0_pay86, k0_pay87, k0_pay88, k0_pay89, k0_pay90, k0_pay91, k0_pay92, k0_pay93,
    k0_pay94, k0_pay95, k0_pay96, k0_pay97, k0_pay98, k0_pay99, k0_pay100, k0_pay101, k0_pay102, k0_pay103,
    k0_pay104, k0_pay105, k0_pay106, k0_pay107, k0_pay108, k0_pay109, k0_pay110, k0_pay111, k0_pay112,
    k0_pay113, k0_pay114, k0_pay115, k0_pay116, k0_pay117, k0_pay118, k0_pay119, k0_pay120, k0_pay121,
    k0_pay122, k0_pay123, k0_pay124, k0_pay125, k0_pay126, k0_pay127, k0_pay128, k0_pay129, k0_pay130,
    k0_pay131, k0_pay132, k0_pay133, k0_pay134]
  refine concat_of_colsFrom _ _ f i' (colMax x0 f i') ?_ rfl j
  have hL := scratch_eq c arg1 harg1 x0
  repeat' (first | exact colsFrom_nil _ _ _ _ | refine colsFrom_cons _ _ _ _ _ _ ?_ ?_)
  all_goals (refine colPiece _ x0 hL _ _ _ ?_ ?_ _ _ _ _ _ f i' 0 <;> decide)

end Cert.KernelIdeal.PoolBody

end
-- ==== Proof.PoolSpec.lean ====
/-
  Max-pooling of a −∞-padded image, as one function of the whole input.

  For an image `x : [128, 384, 384]` over the extended reals, `padded x f r q` is `x[f, r, q]` where `(r, q)` lies inside
  the 384 × 384 image and `⊥` (that is −∞) elsewhere; `pool x f i j` is the maximum of the padded image over the 64 × 64
  window whose corner is `(6 i, 6 j)`. It is written as nested maxima, the column offset outside and the row offset
  inside. As `max` is the join of a linear order with bottom `⊥`, neither the nesting, nor the order of the
  elements, nor how often `⊥` is folded in matters: a bound of the result is exactly a bound of every element of the
  window (`pool_le_iff`), and two values with the same upper bounds are equal. The host's `reduce_window` — a left
  fold of `max` from −∞ over the window's positions in row-major order, a position outside the image read as −∞ —
  is read through that characterisation in RefPool, and the kernel's two passes in Body, BodyOut and KernelValue.
-/
import Idealize.ShloMosaic.PureOps.Ideal
import Idealize.ShloMosaic.PureOps.Ideal.Laws
import Idealize.ShloMosaic.Lib.ValueIdx

noncomputable section

namespace Cert.Pool

open Idealize.ShloMosaic Idealize.ShloMosaic.ValueIdx

/-- The image padded with −∞ to the right and below: `x[f, r, q]` inside the 384 × 384 image, `⊥` outside. -/
def padded (x : FVec Ideal ⟨3, ![128, 384, 384]⟩ .f32) (f : Fin 128) (r q : Nat) : EReal :=
  if h : r < 384 ∧ q < 384 then x (ix3 f ⟨r, h.1⟩ ⟨q, h.2⟩) else ⊥

/-- The maximum of column `q` of the padded image over the 64 rows from `6 i`. -/
def rowMax (x : FVec Ideal ⟨3, ![128, 384, 384]⟩ .f32) (f : Fin 128) (i : Fin 64) (q : Nat) : EReal :=
  (Finset.univ : Finset (Fin 64)).fold max ⊥ fun a => padded x f (6 * i.val + a.val) q

/-- The maximum of the padded image over the 64 × 64 window at `(6 i, 6 j)`: over its columns, of each column's
    maximum over its rows. -/
def pool (x : FVec Ideal ⟨3, ![128, 384, 384]⟩ .f32) (f : Fin 128) (i j : Fin 64) : EReal :=
  (Finset.univ : Finset (Fin 64)).fold max ⊥ fun b => rowMax x f i (6 * j.val + b.val)

/-- The pooled image as an array. -/
def pooled (x : FVec Ideal ⟨3, ![128, 384, 384]⟩ .f32) : FVec Ideal ⟨3, ![128, 64, 64]⟩ .f32 :=
  fun y => pool x (y 0) (y 1) (y 2)

theorem rowMax_le_iff (x : FVec Ideal ⟨3, ![128, 384, 384]⟩ .f32) (f : Fin 128) (i : Fin 64) (q : Nat) (c : EReal) :
    rowMax x f i q ≤ c ↔ ∀ a : Fin 64, padded x f (6 * i.val + a.val) q ≤ c := by
  unfold rowMax
  rw [Finset.fold_max_le]
  exact ⟨fun h a => h.2 a (Finset.mem_univ a), fun h => ⟨bot_le, fun a _ => h a⟩⟩

/-- A value bounds the window's maximum exactly when it bounds every element of the window. -/
theorem pool_le_iff (x : FVec Ideal ⟨3, ![128, 384, 384]⟩ .f32) (f : Fin 128) (i j : Fin 64) (c : EReal) :
    pool x f i j ≤ c ↔ ∀ a b : Fin 64, padded x f (6 * i.val + a.val) (6 * j.val + b.val) ≤ c := by
  unfold pool
  rw [Finset.fold_max_le]
  constructor
  · intro h a b; exact (rowMax_le_iff x f i _ c).1 (h.2 b (Finset.mem_univ b)) a
  · intro h; exact ⟨bot_le, fun b _ => (rowMax_le_iff x f i _ c).2 fun a => h a b⟩

/-- A left fold of `max` over a list is bounded exactly when its start and every element are. -/
theorem foldl_max_le {ι : Type} (g : ι → EReal) (c : EReal) :
    ∀ (l : List ι) (v : EReal), l.foldl (fun r n => max r (g n)) v ≤ c ↔ v ≤ c ∧ ∀ n ∈ l, g n ≤ c
  | [], v => by simp
  | n :: l, v => by
    rw [List.foldl_cons, foldl_max_le g c l, max_le_iff, List.forall_mem_cons, and_assoc]

end Cert.Pool

end
-- ==== Proof.PadPool.lean ====
/-
  The host's `pad` of the image with −∞, 58 rows below and 128 columns to the right, read at an index, is the padded
  image of the specification: the image inside its 384 × 384 extent, `⊥` in the padding.
-/
import proofs.«424409_j61237643707061_3_alg».proof.Proof.PoolSpec
import Idealize.ShloMosaic.Lib.KernelVsHost

noncomputable section

namespace Cert.Pool

open Idealize.ShloMosaic Idealize.ShloMosaic.ValueIdx

theorem pad_eq_padded (x : FVec Ideal ⟨3, ![128, 384, 384]⟩ .f32) (v : FVec Ideal ⟨0, ![]⟩ .f32) (hv : ∀ k, v k = ⊥)
    (h : (⟨3, ![128, 384, 384]⟩ : Shape).Pads ![0, 0, 0] ![0, 58, 128] ![0, 0, 0] ⟨3, ![128, 442, 512]⟩)
    (hu : 0 < (⟨0, ![]⟩ : Shape).numel) (f : Fin 128) (r : Fin 442) (q : Fin 512) :
    pad ⟨3, ![128, 442, 512]⟩ ![0, 0, 0] ![0, 58, 128] ![0, 0, 0] x v h hu (ix3 f r q) = padded x f r.val q.val := by
  unfold padded
  by_cases hc : r.val < 384 ∧ q.val < 384
  · rw [dif_pos hc]
    refine pad_apply_of_inside _ _ _ x v h hu (ix3 f r q) (ix3 f ⟨r.val, hc.1⟩ ⟨q.val, hc.2⟩) fun a => ?_
    match a with
    | ⟨0, _⟩ => show f.val = 0 + f.val * (0 + 1); omega
    | ⟨1, _⟩ => show r.val = 0 + r.val * (0 + 1); omega
    | ⟨2, _⟩ => show q.val = 0 + q.val * (0 + 1); omega
  · rw [dif_neg hc]
    rcases not_and_or.1 hc with h1 | h2
    · rw [pad_apply_of_not_inside _ _ _ x v h hu (ix3 f r q) (1 : Fin 3)
        (by show ¬(0 ≤ r.val ∧ (r.val - 0) % (0 + 1) = 0 ∧ (r.val - 0) / (0 + 1) < 384); omega), hv]
    · rw [pad_apply_of_not_inside _ _ _ x v h hu (ix3 f r q) (2 : Fin 3)
        (by show ¬(0 ≤ q.val ∧ (q.val - 0) % (0 + 1) = 0 ∧ (q.val - 0) / (0 + 1) < 384); omega), hv]

end Cert.Pool

end
-- ==== Proof.KernelValue.lean ====
/-
  The kernel's result array, as one function of the input.

  The region is launched on the image padded with −∞ to `[128, 442, 512]` (the host's `pad`), eight grid points, point
  `t` staging planes `16 t … 16 t + 15` whole and writing back the same planes of the result. At point `t` the staged
  block's entry `(f, r, q)` is the padded image at plane `16 t + f` (`xblk_apply`), so the body's output block
  (Body, BodyOut) holds at `(f, i, j)` the maximum of the padded image of plane `16 t + f` over the 64 × 64 window at
  `(6 i, 6 j)`: block `t` of `pooled` (`flushed_eq`). The eight blocks tile the result (`cover`), which therefore ends
  holding `pooled` of the input (`final`, `run`).
-/
import proofs.«424409_j61237643707061_3_alg».proof.Proof.Gen.KernelIdeal.Value
import proofs.«424409_j61237643707061_3_alg».proof.Proof.BodyOut
import proofs.«424409_j61237643707061_3_alg».proof.Proof.PadPool
import Idealize.ShloMosaic.Lib.StableHlo.Run

set_option maxRecDepth 16384

noncomputable section

namespace Cert.KernelIdeal.PoolValue

open Cert.KernelIdeal Cert.KernelIdeal.Gen Cert.KernelIdeal.PoolBody Cert.Pool
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The image as launched. -/
abbrev img (c : Dev nD) : FVec Ideal S128x384x384 .f32 := m ((c : Thread nD τ).loc main_arg0)

/-- The array the region stages its input from is the image padded with −∞. -/
theorem V_pad (c : Dev nD) :
    (V m c main_v0 : S128x442x512.Idx → EReal)
      = pad S128x442x512 ![0, 0, 0] ![0, 58, 128] ![0, 0, 0] (img m c) (constant (F := Ideal) S_ .f32 0xFF800000#32)
          pads_S128x384x384_S128x442x512_000_0580_01280 h_S_ := by
  dsimp only [V]
  simp only [hostOps0, hostOps0_1, List.flatten_cons, List.flatten_nil, List.append_nil, List.cons_append,
    List.nil_append]
  after_results
  rfl

/-- The printed index maps over the grid: point `t` stages, and writes back, block `t` along the planes. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The block of the padded image staged at point `t`. -/
abbrev xblk (c : Dev nD) (t : Fin cfg0.N) : Vec Ideal S16x442x512 .f32 := iblk m c 0 t

/-- Plane `16 t + f` of the image, for a plane `f` of block `t`. -/
def plane (t : Fin cfg0.N) (f : Fin 16) : Fin 128 := ⟨16 * t.val + f.val, by have : t.val < 8 := t.isLt; omega⟩

theorem xblk_apply (c : Dev nD) (t : Fin cfg0.N) (f : Fin 16) (r : Fin 442) (q : Fin 512) :
    xblk m c t (ix3 f r q) = padded (img m c) (plane t f) r.val q.val := by
  obtain ⟨e0, e1, e2, -, -, -⟩ := idx_facts t
  have hemb : ((cfg0.win 0).blk t).view.emb (ix3 f r q) = (ix3 (plane t f) r q : S128x442x512.Idx) := by
    funext a; apply Fin.ext
    match a with
    | ⟨0, _⟩ => show win0_0.index t (0 : Fin 3) * 16 + 1 * f.val = 16 * t.val + f.val; omega
    | ⟨1, _⟩ => show win0_0.index t (1 : Fin 3) * 442 + 1 * r.val = r.val; omega
    | ⟨2, _⟩ => show win0_0.index t (2 : Fin 3) * 512 + 1 * q.val = q.val; omega
  show V m c main_v0 (((cfg0.win 0).blk t).view.emb (ix3 f r q)) = _
  rw [hemb]
  refine (congrFun (V_pad m c) _).trans ?_
  exact pad_eq_padded _ _ (fun _ => ofBits_neg_inf) _ _ (plane t f) r q

theorem blockAt_xblk (c : Dev nD) (t : Fin cfg0.N) (f : Fin 16) (r q : Nat) (hr : r < 442) (hq : q < 512) :
    blockAt (xblk m c t) f r q = padded (img m c) (plane t f) r q := by
  unfold blockAt
  rw [dif_pos ⟨hr, hq⟩]
  exact xblk_apply m c t f ⟨r, hr⟩ ⟨q, hq⟩

/-- The body's output at point `t` is the window maximum of the padded image. -/
theorem colMax_xblk (c : Dev nD) (t : Fin cfg0.N) (f : Fin 16) (i j : Fin 64) :
    colMax (xblk m c t) f i j.val = Cert.Pool.pool (img m c) (plane t f) i j := by
  unfold colMax Cert.Pool.pool slabN rowMax
  refine congrArg (fun g => Finset.fold max ⊥ g Finset.univ) (funext fun b =>
    congrArg (fun g => Finset.fold max ⊥ g Finset.univ) (funext fun a => ?_))
  have ha := a.isLt; have hb := b.isLt; have hi := i.isLt; have hj := j.isLt
  exact blockAt_xblk m c t f _ _ (by omega) (by omega)

/-- What point `t` writes back is block `t` of the pooled image. -/
theorem flushed_eq (c : Dev nD) (t : Fin cfg0.N) :
    (dats m 0 c).flushed 1 t = ((cfg0.win 1).blk t).view.read (Elt Ideal) (pooled (img m c)) := by
  rw [Value.flushed1_A]
  obtain ⟨-, -, -, e0, e1, e2⟩ := idx_facts t
  funext y
  obtain ⟨f, i, j, rfl⟩ : ∃ (f : Fin 16) (i j : Fin 64), y = ix3 f i j := ⟨y 0, y 1, y 2, eq_ix3 y⟩
  have hemb : ((cfg0.win 1).blk t).view.emb (ix3 f i j) = (ix3 (plane t f) i j : S128x64x64.Idx) := by
    funext a; apply Fin.ext
    match a with
    | ⟨0, _⟩ => show win0_1.index t (0 : Fin 3) * 16 + 1 * f.val = 16 * t.val + f.val; omega
    | ⟨1, _⟩ => show win0_1.index t (1 : Fin 3) * 64 + 1 * i.val = i.val; omega
    | ⟨2, _⟩ => show win0_1.index t (2 : Fin 3) * 64 + 1 * j.val = j.val; omega
  show out0_A_1 c (grid0.coords t) (ms0_0 t) (hs0_0 t) (ms0_1 t) (hs0_1 t) scM0_0 (Memref.isWhole_whole _)
      (xblk m c t) (ix3 f i j) = pooled (img m c) (((cfg0.win 1).blk t).view.emb (ix3 f i j))
  rw [hemb, out_apply, colMax_xblk]
  rfl

/-- An index of the result is in point `t`'s block iff each coordinate is in the block's range on its axis. -/
theorem mem_blk (t : Fin cfg0.N) (y : S128x64x64.Idx) :
    y ∈ ((cfg0.win 1).blk t).view.set ↔ ∀ a : Fin 3, win0_1.index t a * S16x64x64.size a ≤ (y a).val
      ∧ (y a).val < win0_1.index t a * S16x64x64.size a + S16x64x64.size a := by
  show y ∈ ((View.whole main_v1).slice (win0_1.rect t)).set ↔ _
  rw [View.set_slice_whole, Rect.mem_set_unit]
  exact Iff.rfl

/-- Every index of the result lies in the block of the point that holds its plane. -/
theorem cover (y : S128x64x64.Idx) :
    ∃ t : Fin cfg0.N, (cfg0.win 1).flush t = true ∧ y ∈ ((cfg0.win 1).blk t).view.set := by
  have h0 : (y 0).val < 128 := (y 0).isLt
  have h1 : (y 1).val < 64 := (y 1).isLt
  have h2 : (y 2).val < 64 := (y 2).isLt
  let t : Fin cfg0.N := ⟨(y 0).val / 16, by show (y 0).val / 16 < 8; omega⟩
  obtain ⟨-, -, -, e0, e1, e2⟩ := idx_facts t
  have et : t.val = (y 0).val / 16 := rfl
  refine ⟨t, flush0_1 t, ?_⟩
  rw [mem_blk]
  intro a
  match a with
  | ⟨0, _⟩ => show win0_1.index t (0 : Fin 3) * 16 ≤ (y 0).val ∧ (y 0).val < win0_1.index t (0 : Fin 3) * 16 + 16; omega
  | ⟨1, _⟩ => show win0_1.index t (1 : Fin 3) * 64 ≤ (y 1).val ∧ (y 1).val < win0_1.index t (1 : Fin 3) * 64 + 64; omega
  | ⟨2, _⟩ => show win0_1.index t (2 : Fin 3) * 64 ≤ (y 2).val ∧ (y 2).val < win0_1.index t (2 : Fin 3) * 64 + 64; omega

/-- The result array after the run is the pooled image. -/
theorem final (c : Dev nD) : (dats m 0 c).arrAt 1 cfg0.N = pooled (img m c) :=
  (dats m 0 c).arrAt_eq_of_cover 1 (pooled (img m c)) (fun t _ => flushed_eq m c t) cover

/-- Every weakly fair execution of the kernel's program ends with the result at `pooled` of the input, the input
    unchanged. -/
theorem run : θ_run defs (onTc (τ := τ) (main (F := Ideal))) ⟨m, fun _ => 0, ρ⟩ fun r => ∀ c : Dev nD,
      r.2.mem ((c : Thread nD τ).loc main_v1) = pooled (img m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.PoolValue

end
-- ==== Proof.RefPool.lean ====
/-
  The host's `reduce_window` with `max` from −∞, window 1 × 64 × 64, strides 1 × 6 × 6, padded 58 to the right and
  below, read at `(f, i, j)`, is `pool x f i j`.

  The operation folds `max` from its initial value over the 4096 window positions in row-major order; the element at
  window position `(0, a, b)` is `x[f, 6 i + a, 6 j + b]` when that lies inside the image and the initial value (−∞)
  when it falls in the padding: that is `padded x f (6 i + a) (6 j + b)` (`window_elt`). A bound of the fold is a
  bound of every position's element (`foldl_max_le`), the positions are all of `(0, a, b)` through the row-major
  bijection, and a bound of every element is a bound of `pool` (`pool_le_iff`); two extended reals with the same upper
  bounds are equal.
-/
import proofs.«424409_j61237643707061_3_alg».proof.Proof.PoolSpec

noncomputable section

namespace Cert.Pool

open Idealize.ShloMosaic Idealize.ShloMosaic.ValueIdx

/-- The element the fold meets at window position `w = (0, a, b)` of output `(f, i, j)`: the image at
    `(f, 6 i + a, 6 j + b)` inside it, −∞ in the padding. -/
theorem window_elt (x : FVec Ideal ⟨3, ![128, 384, 384]⟩ .f32) (f : Fin 128) (i j : Fin 64) (e : (3 : Nat) = 3)
    (w : (⟨3, ![1, 64, 64]⟩ : Shape).Idx) :
    (if hin : ∀ a : Fin 3, (![0, 0, 0] : Fin 3 → Nat) a
            ≤ (ix3 f i j (Fin.cast e a)).val * (![1, 6, 6] : Fin 3 → Nat) a + (w a).val ∧
          (ix3 f i j (Fin.cast e a)).val * (![1, 6, 6] : Fin 3 → Nat) a + (w a).val - (![0, 0, 0] : Fin 3 → Nat) a
            < (![128, 384, 384] : Fin 3 → Nat) a
      then x fun a => ⟨(ix3 f i j (Fin.cast e a)).val * (![1, 6, 6] : Fin 3 → Nat) a + (w a).val
          - (![0, 0, 0] : Fin 3 → Nat) a, (hin a).2⟩
      else (⊥ : EReal))
      = padded x f (6 * i.val + (w 1).val) (6 * j.val + (w 2).val) := by
  have hw0 : (w 0).val = 0 := by have : (w 0).val < 1 := (w 0).isLt; omega
  unfold padded
  split
  · rename_i hin
    have h1 : 0 ≤ i.val * 6 + (w 1).val ∧ i.val * 6 + (w 1).val - 0 < 384 := hin 1
    have h2 : 0 ≤ j.val * 6 + (w 2).val ∧ j.val * 6 + (w 2).val - 0 < 384 := hin 2
    rw [dif_pos (show 6 * i.val + (w 1).val < 384 ∧ 6 * j.val + (w 2).val < 384 by omega)]
    refine congrArg x (funext fun a => Fin.ext ?_)
    match a with
    | ⟨0, _⟩ => show f.val * 1 + (w 0).val - 0 = f.val; rw [hw0]; omega
    | ⟨1, _⟩ => show i.val * 6 + (w 1).val - 0 = 6 * i.val + (w 1).val; omega
    | ⟨2, _⟩ => show j.val * 6 + (w 2).val - 0 = 6 * j.val + (w 2).val; omega
  · rename_i hin
    rw [dif_neg]
    intro hc
    apply hin
    intro a
    match a with
    | ⟨0, _⟩ => show 0 ≤ f.val * 1 + (w 0).val ∧ f.val * 1 + (w 0).val - 0 < 128; have := f.isLt; omega
    | ⟨1, _⟩ => show 0 ≤ i.val * 6 + (w 1).val ∧ i.val * 6 + (w 1).val - 0 < 384; omega
    | ⟨2, _⟩ => show 0 ≤ j.val * 6 + (w 2).val ∧ j.val * 6 + (w 2).val - 0 < 384; omega

/-- The host's window maximum at `(f, i, j)` is the maximum of the padded image over the window at `(6 i, 6 j)`. -/
theorem reduceWindow_max_apply (x : FVec Ideal ⟨3, ![128, 384, 384]⟩ .f32) (v : FVec Ideal ⟨0, ![]⟩ .f32)
    (hv : ∀ k, v k = ⊥)
    (h : (⟨3, ![128, 384, 384]⟩ : Shape).ReduceWindows ![1, 64, 64] ![1, 6, 6] ![0, 0, 0] ![0, 58, 58]
      ⟨3, ![128, 64, 64]⟩)
    (hu : 0 < (⟨0, ![]⟩ : Shape).numel) (f : Fin 128) (i j : Fin 64) :
    Host.reduceWindow (FloatOps.maximumf (F := Ideal) (φ := .f32)) ![1, 64, 64] ![1, 6, 6] ![0, 0, 0] ![0, 58, 58]
        x v h hu (ix3 f i j)
      = pool x f i j := by
  apply eq_of_forall_ge_iff
  intro c
  unfold Host.reduceWindow
  dsimp only
  rw [hv]
  refine (foldl_max_le _ c _ _).trans ?_
  rw [pool_le_iff]
  constructor
  · rintro ⟨-, hn⟩ a b
    have hab := hn ((⟨3, ![1, 64, 64]⟩ : Shape).rowMajor (ix3 (0 : Fin 1) a b)) (List.mem_finRange _)
    have hw := window_elt x f i j h.1.symm
      ((⟨3, ![1, 64, 64]⟩ : Shape).rowMajor.symm ((⟨3, ![1, 64, 64]⟩ : Shape).rowMajor (ix3 (0 : Fin 1) a b)))
    have e : (⟨3, ![1, 64, 64]⟩ : Shape).rowMajor.symm ((⟨3, ![1, 64, 64]⟩ : Shape).rowMajor (ix3 (0 : Fin 1) a b))
        = ix3 (0 : Fin 1) a b := Equiv.symm_apply_apply _ _
    have e1 : (((⟨3, ![1, 64, 64]⟩ : Shape).rowMajor.symm
        ((⟨3, ![1, 64, 64]⟩ : Shape).rowMajor (ix3 (0 : Fin 1) a b))) 1).val = a.val := by rw [e]
    have e2 : (((⟨3, ![1, 64, 64]⟩ : Shape).rowMajor.symm
        ((⟨3, ![1, 64, 64]⟩ : Shape).rowMajor (ix3 (0 : Fin 1) a b))) 2).val = b.val := by rw [e]
    rw [e1, e2] at hw
    exact le_trans (le_of_eq hw.symm) hab
  · intro hp
    refine ⟨bot_le, fun n _ => ?_⟩
    exact le_trans (le_of_eq (window_elt x f i j h.1.symm ((⟨3, ![1, 64, 64]⟩ : Shape).rowMajor.symm n)))
      (hp _ _)

end Cert.Pool

end
-- ==== Proof.RefValue.lean ====
/-
  The reference's result array, as one function of the input: its one operation, the window maximum from −∞
  (a constant broadcast to the rank-zero initial value), is `pooled` of the input, index by index (RefPool).
-/
import proofs.«424409_j61237643707061_3_alg».proof.Proof.Gen.ReferenceIdeal.Run
import proofs.«424409_j61237643707061_3_alg».proof.Proof.RefPool
import proofs.«424409_j61237643707061_3_alg».proof.Proof.BlockMax

noncomputable section

namespace Cert.ReferenceIdeal.PoolValue

open Cert.ReferenceIdeal Cert.ReferenceIdeal.Gen Cert.Pool
open Idealize.ShloMosaic Idealize.ShloMosaic.TcCoe Idealize.ShloMosaic.ValueIdx

/-- The term the reference's run ends at is the pooled image. -/
theorem result_eq (x : FVec Ideal S128x384x384 .f32) :
    Host.reduceWindow FloatOps.maximumf ![1, 64, 64] ![1, 6, 6] ![0, 0, 0] ![0, 58, 58] x
        (broadcastInDim S_ ![] bcast_S_S_ (constant (F := Ideal) S_ .f32 0xFF800000#32))
        reduceWindows_S128x384x384_S128x64x64_w1s1p0_0_w64s6p0_58_w64s6p0_58 h_S_
      = pooled x := by
  funext y
  obtain ⟨f, i, j, rfl⟩ : ∃ (f : Fin 128) (i j : Fin 64), y = ix3 f i j := ⟨y 0, y 1, y 2, eq_ix3 y⟩
  exact reduceWindow_max_apply x _ (fun _ => ofBits_neg_inf) _ _ f i j

end Cert.ReferenceIdeal.PoolValue

end
-- ==== Proof.lean ====
/-
  Max-pooling with overlapping windows: a separable two-pass kernel against one `reduce_window`.

  The reference takes, for each of 128 planes of a 384 × 384 image, the maximum over the 64 × 64 window at stride 6, the
  image padded with −∞ by 58 below and to the right: one `reduce_window` with `max` from −∞. The kernel pads the image
  with −∞ on the host and, 16 planes at a time, first takes the maximum of each column over the window's 64 rows (into
  a scratch), then the maximum of each scratch row over the window's 64 columns, and concatenates the 64 result
  columns. Over the extended reals `max` is the join of a linear order and −∞ its bottom, so the two nested maxima and
  the one 64 × 64 fold have the same upper bounds (the bounds of every element of the padded window) and are equal:
  both result arrays are `Cert.Pool.pooled` of the input (PoolSpec; the kernel's side in Body, BodyOut, KernelValue,
  the reference's in RefPool, RefValue). No finiteness of the input is used.

  The frames of the two kernel programs are the generated frame certificates; the reference's is its generated run
  with the result dropped; the idealization rewrote nothing, so `preserves` is `True`.
-/
import proofs.«424409_j61237643707061_3_alg».proof.Defs
import proofs.«424409_j61237643707061_3_alg».proof.Proof.Gen.Kernel
import proofs.«424409_j61237643707061_3_alg».proof.Proof.Gen.Kernel.Skeleton
import proofs.«424409_j61237643707061_3_alg».proof.Proof.Gen.Kernel.Launch
import proofs.«424409_j61237643707061_3_alg».proof.Proof.Gen.Kernel.Points
import proofs.«424409_j61237643707061_3_alg».proof.Proof.Gen.Kernel.Frame
import proofs.«424409_j61237643707061_3_alg».proof.Proof.Gen.KernelIdeal
import proofs.«424409_j61237643707061_3_alg».proof.Proof.Gen.KernelIdeal.Skeleton
import proofs.«424409_j61237643707061_3_alg».proof.Proof.Gen.KernelIdeal.Launch
import proofs.«424409_j61237643707061_3_alg».proof.Proof.Gen.KernelIdeal.Points
import proofs.«424409_j61237643707061_3_alg».proof.Proof.Gen.KernelIdeal.Frame
import proofs.«424409_j61237643707061_3_alg».proof.Proof.Gen.ReferenceIdeal
import proofs.«424409_j61237643707061_3_alg».proof.Proof.Gen.Pre_finite_inputs
import proofs.«424409_j61237643707061_3_alg».proof.Proof.Gen.KernelIdeal.Value
import proofs.«424409_j61237643707061_3_alg».proof.Proof.Gen.ReferenceIdeal.Run
import proofs.«424409_j61237643707061_3_alg».proof.Proof.KernelValue
import proofs.«424409_j61237643707061_3_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the pooled image of the same input. -/
theorem algebraic : Cert.algebraic_KernelIdeal_ReferenceIdeal := by
  intro m ρ m' ρ' _ hagree
  refine ⟨fun c => Cert.Pool.pooled (Cert.KernelIdeal.PoolValue.img m c), Cert.KernelIdeal.PoolValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.PoolValue.result_eq, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
